-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel

variable [Facts]

def fn {F : FTy → Type} [FloatOps F] (main_arg0 : FVec F S4096x64x128 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  main_v3
-- ==== Kernel.lean ====
abbrev S4096x64x128 : Shape := ⟨3, ![4096, 64, 128]⟩
abbrev S2016 : Shape := ⟨1, ![2016]⟩
abbrev S4096x64x64 : Shape := ⟨3, ![4096, 64, 64]⟩
abbrev S256x64x128 : Shape := ⟨3, ![256, 64, 128]⟩
abbrev S256x64x64 : Shape := ⟨3, ![256, 64, 64]⟩
abbrev S_ : Shape := ⟨0, ![]⟩
abbrev S2016x1 : Shape := ⟨2, ![2016, 1]⟩
abbrev S2016x2 : Shape := ⟨2, ![2016, 2]⟩
abbrev S4096x2016 : Shape := ⟨2, ![4096, 2016]⟩

abbrev nBuf : Space → Nat
  | .hbm => 18
  | .vmem => 4
  | .smem => 0
  | _ => 0

abbrev bufTy : (tb : Table) → Fin (tcTables nBuf tb) → BufTy
  | .hbm, ⟨0, _⟩ => ⟨S4096x64x128, .f32⟩
  | .hbm, ⟨1, _⟩ => ⟨S2016, .i32⟩
  | .hbm, ⟨2, _⟩ => ⟨S2016, .i1⟩
  | .hbm, ⟨3, _⟩ => ⟨S2016, .i32⟩
  | .hbm, ⟨4, _⟩ => ⟨S2016, .i1⟩
  | .hbm, ⟨5, _⟩ => ⟨S4096x64x64, .f32⟩
  | .hbm, ⟨6, _⟩ => ⟨S_, .i32⟩
  | .hbm, ⟨7, _⟩ => ⟨S2016, .i32⟩
  | .hbm, ⟨8, _⟩ => ⟨S2016, .i32⟩
  | .hbm, ⟨9, _⟩ => ⟨S2016, .i32⟩
  | .hbm, ⟨10, _⟩ => ⟨S_, .i32⟩
  | .hbm, ⟨11, _⟩ => ⟨S2016, .i32⟩
  | .hbm, ⟨12, _⟩ => ⟨S2016, .i32⟩
  | .hbm, ⟨13, _⟩ => ⟨S2016, .i32⟩
  | .hbm, ⟨14, _⟩ => ⟨S2016x1, .i32⟩
  | .hbm, ⟨15, _⟩ => ⟨S2016x1, .i32⟩
  | .hbm, ⟨16, _⟩ => ⟨S2016x2, .i32⟩
  | .hbm, ⟨17, _⟩ => ⟨S4096x2016, .f32⟩
  | .local _ .vmem, ⟨0, _⟩ => ⟨S256x64x128, .f32⟩
  | .local _ .vmem, ⟨1, _⟩ => ⟨S256x64x128, .f32⟩
  | .local _ .vmem, ⟨2, _⟩ => ⟨S256x64x64, .f32⟩
  | .local _ .vmem, ⟨3, _⟩ => ⟨S256x64x64, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x64x128_S256x64x128_0_0_0 : ∀ a, (![0, 0, 0] : Fin 3 → Nat) a + S256x64x128.size a ≤ S256x64x128.size a
  h_S256x64x128 : 0 < S256x64x128.numel
  bitsLt_bf16_f32 : FTy.bits .bf16 < FTy.bits .f32
  inb_S256x64x64_S256x64x64_0_0_0 : ∀ a, (![0, 0, 0] : Fin 3 → Nat) a + S256x64x64.size a ≤ S256x64x64.size a
  h_S256x64x64 : 0 < S256x64x64.numel
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S256x64x128_S256x64x128_S256x64x64_2_2_1_1_0_0_wf : DotDims.WF S256x64x128 S256x64x128 S256x64x64 [2] [2] [1] [1] [0] [0]
  gather_S4096x64x64_S2016x2_S4096x2016_0_12_n_n_12_1_409611_wf : GatherDims.WF S4096x64x64 S2016x2 S4096x2016 [0] [1, 2] [] [1, 2] [] 1 ![4096, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x128.size a ≤ S4096x64x128.size a
  hwx0_0 : ∀ i : grid0.Coords, EltTy.bits .f32 = 32 ∨ (Rect.block (s := S4096x64x128) S256x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S4096x64x64.size a
  hwx0_1 : ∀ i : grid0.Coords, EltTy.bits .f32 = 32 ∨ (Rect.block (s := S4096x64x64) S256x64x64.size (cc0_transform_1 i) (hinb0_1 i)).WholeWords (EltTy.packing .f32)

variable [Facts₀]

def dot_S256x64x128_S256x64x128_S256x64x64_2_2_1_1_0_0 : DotDims S256x64x128 S256x64x128 S256x64x64 where
  lhsContracting := [2]
  rhsContracting := [2]
  lhsNonContracting := [1]
  rhsNonContracting := [1]
  lhsBatch := [0]
  rhsBatch := [0]
  wf := dot_S256x64x128_S256x64x128_S256x64x64_2_2_1_1_0_0_wf
def gather_S4096x64x64_S2016x2_S4096x2016_0_12_n_n_12_1_409611 : GatherDims S4096x64x64 S2016x2 S4096x2016 where
  offsetDims := [0]
  collapsedSliceDims := [1, 2]
  operandBatchingDims := []
  startIndicesBatchingDims := []
  startIndexMap := [1, 2]
  indexVectorDim := 1
  sliceSizes := ![4096, 1, 1]
  wf := gather_S4096x64x64_S2016x2_S4096x2016_0_12_n_n_12_1_409611_wf

abbrev win0_0 : Pipeline.Window sig grid0 :=
  Pipeline.Window.ofSpec (Memref.whole main_arg0) S256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S2016 : Shape := ⟨1, ![2016]⟩
abbrev S4096x64x64 : Shape := ⟨3, ![4096, 64, 64]⟩
abbrev S_ : Shape := ⟨0, ![]⟩
abbrev S2016x1 : Shape := ⟨2, ![2016, 1]⟩
abbrev S2016x2 : Shape := ⟨2, ![2016, 2]⟩
abbrev S4096x2016 : Shape := ⟨2, ![4096, 2016]⟩

abbrev nBuf : Space → Nat
  | .hbm => 18
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S2016, .i32⟩
  | .hbm, ⟨2, _⟩ => ⟨S2016, .i1⟩
  | .hbm, ⟨3, _⟩ => ⟨S2016, .i32⟩
  | .hbm, ⟨4, _⟩ => ⟨S2016, .i1⟩
  | .hbm, ⟨5, _⟩ => ⟨S4096x64x64, .f32⟩
  | .hbm, ⟨6, _⟩ => ⟨S_, .i32⟩
  | .hbm, ⟨7, _⟩ => ⟨S2016, .i32⟩
  | .hbm, ⟨8, _⟩ => ⟨S2016, .i32⟩
  | .hbm, ⟨9, _⟩ => ⟨S2016, .i32⟩
  | .hbm, ⟨10, _⟩ => ⟨S_, .i32⟩
  | .hbm, ⟨11, _⟩ => ⟨S2016, .i32⟩
  | .hbm, ⟨12, _⟩ => ⟨S2016, .i32⟩
  | .hbm, ⟨13, _⟩ => ⟨S2016, .i32⟩
  | .hbm, ⟨14, _⟩ => ⟨S2016x1, .i32⟩
  | .hbm, ⟨15, _⟩ => ⟨S2016x1, .i32⟩
  | .hbm, ⟨16, _⟩ => ⟨S2016x2, .i32⟩
  | .hbm, ⟨17, _⟩ => ⟨S4096x2016, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S4096x64x128_S4096x64x128_S4096x64x64_2_2_1_1_0_0_wf : DotDims.WF S4096x64x128 S4096x64x128 S4096x64x64 [2] [2] [1] [1] [0] [0]
  gather_S4096x64x64_S2016x2_S4096x2016_0_12_n_n_12_1_409611_wf : GatherDims.WF S4096x64x64 S2016x2 S4096x2016 [0] [1, 2] [] [1, 2] [] 1 ![4096, 1, 1]

variable [Facts₀]

def dot_S4096x64x128_S4096x64x128_S4096x64x64_2_2_1_1_0_0 : DotDims S4096x64x128 S4096x64x128 S4096x64x64 where
  lhsContracting := [2]
  rhsContracting := [2]
  lhsNonContracting := [1]
  rhsNonContracting := [1]
  lhsBatch := [0]
  rhsBatch := [0]
  wf := dot_S4096x64x128_S4096x64x128_S4096x64x64_2_2_1_1_0_0_wf
def gather_S4096x64x64_S2016x2_S4096x2016_0_12_n_n_12_1_409611 : GatherDims S4096x64x64 S2016x2 S4096x2016 where
  offsetDims := [0]
  collapsedSliceDims := [1, 2]
  operandBatchingDims := []
  startIndicesBatchingDims := []
  startIndexMap := [1, 2]
  indexVectorDim := 1
  sliceSizes := ![4096, 1, 1]
  wf := gather_S4096x64x64_S2016x2_S4096x2016_0_12_n_n_12_1_409611_wf

class Facts : Prop extends Facts₀ where

variable [Facts]
-- ==== Proof.LibBatchDotLast.lean ====
/-
  A dot product with ONE batch axis whose two operands are contracted on their LAST axis, read at an entry.

  The operands are l : [B, M, K] and r : [B, N, K], the result is [B, M, N], and the dimension numbers are
  batch [0] x [0], free [1] and [1], contracted [2] x [2] (jnp's "bfd,bgd->bfg"). At the ideal values both the
  kernel's tpu.matmul into a zero accumulator and the host's dot_general are, at entry (b, f, g),

      sum over k < K of  l (b, f, k) * r (b, g, k).

  The first part reads one coordinate of DotDims.lhsIdx / rhsIdx for ANY dimension record, by the branch the axis
  takes (a batch axis, a free axis); the contracted axis is the library's lhsIdx_val_of_single / rhsIdx_val_of_single.
  The second part puts the six coordinates together for a record whose six lists are the ones above.
-/
import Idealize.ShloMosaic.Lib.ValueIdx
import Idealize.ShloMosaic.PureOps.Ideal.Laws

namespace Idealize.ShloMosaic.BatchDotLast

open Idealize.ShloMosaic Idealize.ShloMosaic.ValueIdx

/-! ## One coordinate of an operand index, for any dimension record -/

section AnyRecord
variable {sl sr so : Shape} (d : DotDims sl sr so)

/-- On a batch axis the left operand reads the result index at the axis's position among the batch axes. -/
theorem lhsIdx_val_of_batch (a : Fin sl.rank) (hb : a ∈ d.lhsBatch) (j : so.Idx) (k : d.contr.Idx) (p : Fin so.rank)
    (hp : p.val = d.lhsBatch.idxOf a) : (d.lhsIdx j k a).val = (j p).val := by
  unfold DotDims.lhsIdx
  rw [dif_pos hb]
  simp only [Fin.val_cast]
  have key : ∀ (p' : Fin so.rank), p' = p → (j p').val = (j p).val := fun p' h => by subst h; rfl
  exact key _ (Fin.ext hp.symm)

/-- On a free axis the left operand reads the result index after the batch axes, at the axis's position among the
    left operand's free axes. -/
theorem lhsIdx_val_of_free (a : Fin sl.rank) (hb : a ∉ d.lhsBatch) (hn : a ∈ d.lhsNonContracting) (j : so.Idx)
    (k : d.contr.Idx) (p : Fin so.rank) (hp : p.val = d.lhsBatch.length + d.lhsNonContracting.idxOf a) :
    (d.lhsIdx j k a).val = (j p).val := by
  unfold DotDims.lhsIdx
  rw [dif_neg hb, dif_pos hn]
  simp only [Fin.val_cast]
  have key : ∀ (p' : Fin so.rank), p' = p → (j p').val = (j p).val := fun p' h => by subst h; rfl
  exact key _ (Fin.ext hp.symm)

/-- On a batch axis the right operand reads the result index at the axis's position among the batch axes. -/
theorem rhsIdx_val_of_batch (a : Fin sr.rank) (hb : a ∈ d.rhsBatch) (j : so.Idx) (k : d.contr.Idx) (p : Fin so.rank)
    (hp : p.val = d.rhsBatch.idxOf a) : (d.rhsIdx j k a).val = (j p).val := by
  unfold DotDims.rhsIdx
  rw [dif_pos hb]
  simp only [Fin.val_cast]
  have key : ∀ (p' : Fin so.rank), p' = p → (j p').val = (j p).val := fun p' h => by subst h; rfl
  exact key _ (Fin.ext hp.symm)

/-- On a free axis the right operand reads the result index after the batch axes and the left operand's free axes,
    at the axis's position among the right operand's free axes. -/
theorem rhsIdx_val_of_free (a : Fin sr.rank) (hb : a ∉ d.rhsBatch) (hn : a ∈ d.rhsNonContracting) (j : so.Idx)
    (k : d.contr.Idx) (p : Fin so.rank)
    (hp : p.val = d.lhsBatch.length + d.lhsNonContracting.length + d.rhsNonContracting.idxOf a) :
    (d.rhsIdx j k a).val = (j p).val := by
  unfold DotDims.rhsIdx
  rw [dif_neg hb, dif_pos hn]
  simp only [Fin.val_cast]
  have key : ∀ (p' : Fin so.rank), p' = p → (j p').val = (j p).val := fun p' h => by subst h; rfl
  exact key _ (Fin.ext hp.symm)

end AnyRecord

/-! ## One batch axis, both operands contracted on the last axis -/

section BatchLast
variable {B M N K : Nat} (d : DotDims ⟨3, ![B, M, K]⟩ ⟨3, ![B, N, K]⟩ ⟨3, ![B, M, N]⟩)

/-- The contraction sum of such a record at entry (b, f, g), re-indexed by the contracted coordinate. -/
theorem sum_contr_eq (hlb : d.lhsBatch = [0]) (hrb : d.rhsBatch = [0]) (hln : d.lhsNonContracting = [1])
    (hrn : d.rhsNonContracting = [1]) (hlc : d.lhsContracting = [2]) (hrc : d.rhsContracting = [2])
    (l : (⟨3, ![B, M, K]⟩ : Shape).Idx → EReal) (r : (⟨3, ![B, N, K]⟩ : Shape).Idx → EReal)
    (b : Fin B) (f : Fin M) (g : Fin N) :
    ∑ k : d.contr.Idx, l (d.lhsIdx (ix3 b f g) k) * r (d.rhsIdx (ix3 b f g) k)
      = ∑ k : Fin K, l (ix3 b f k) * r (ix3 b g k) := by
  have hr : d.contr.rank = 1 := by rw [d.rank_contr, hlc]; rfl
  have hs : d.contr.size ⟨0, by omega⟩ = K := by
    rw [d.size_contr 0 (by rw [hlc]; exact Nat.one_pos), List.getElem_of_eq hlc]
    rfl
  rw [← Equiv.sum_comp (contrEquiv1 d K hr hs).symm]
  refine Finset.sum_congr rfl fun k _ => ?_
  have hk := contrEquiv1_symm_val d K hr hs k
  have el : d.lhsIdx (ix3 b f g) ((contrEquiv1 d K hr hs).symm k) = ix3 b f k := funext fun a => Fin.ext (by
    match a with
    | ⟨0, _⟩ =>
      exact lhsIdx_val_of_batch d (0 : Fin 3) (by rw [hlb]; exact List.mem_singleton.mpr rfl) _ _ (0 : Fin 3)
        (by rw [hlb]; rfl)
    | ⟨1, _⟩ =>
      exact lhsIdx_val_of_free d (1 : Fin 3) (by rw [hlb]; exact fun h => absurd (congrArg Fin.val (List.mem_singleton.mp h)) Nat.one_ne_zero) (by rw [hln]; exact List.mem_singleton.mpr rfl) _ _
        (1 : Fin 3) (by rw [hlb, hln]; rfl)
    | ⟨2, _⟩ => exact (d.lhsIdx_val_of_single (cl := (2 : Fin 3)) hlc _ _).trans hk)
  have er : d.rhsIdx (ix3 b f g) ((contrEquiv1 d K hr hs).symm k) = ix3 b g k := funext fun a => Fin.ext (by
    match a with
    | ⟨0, _⟩ =>
      exact rhsIdx_val_of_batch d (0 : Fin 3) (by rw [hrb]; exact List.mem_singleton.mpr rfl) _ _ (0 : Fin 3)
        (by rw [hrb]; rfl)
    | ⟨1, _⟩ =>
      exact rhsIdx_val_of_free d (1 : Fin 3) (by rw [hrb]; exact fun h => absurd (congrArg Fin.val (List.mem_singleton.mp h)) Nat.one_ne_zero) (by rw [hrn]; exact List.mem_singleton.mpr rfl) _ _
        (2 : Fin 3) (by rw [hlb, hln, hrn]; rfl)
    | ⟨2, _⟩ => exact (d.rhsIdx_val_of_single (cr := (2 : Fin 3)) hrc _ _).trans hk)
  rw [el, er]

variable {φ₁ φ₂ : FTy}

/-- The host's dot_general of such a record, at the ideal values, at entry (b, f, g). -/
theorem dotGeneral_apply (hlb : d.lhsBatch = [0]) (hrb : d.rhsBatch = [0]) (hln : d.lhsNonContracting = [1])
    (hrn : d.rhsNonContracting = [1]) (hlc : d.lhsContracting = [2]) (hrc : d.rhsContracting = [2])
    (prec : Option ContractPrecision) (sched : HostSchedule)
    (l : FVec Ideal ⟨3, ![B, M, K]⟩ φ₁) (r : FVec Ideal ⟨3, ![B, N, K]⟩ φ₂) (b : Fin B) (f : Fin M) (g : Fin N) :
    FloatOps.dotGeneral d prec sched l r (ix3 b f g) = ∑ k : Fin K, l (ix3 b f k) * r (ix3 b g k) :=
  (Ideal.dotGeneral_apply d prec sched l r (ix3 b f g)).trans (sum_contr_eq d hlb hrb hln hrn hlc hrc l r b f g)

/-- The kernel's tpu.matmul of such a record into the zero accumulator, at the ideal values, at entry (b, f, g). -/
theorem matmul_zero_apply (hlb : d.lhsBatch = [0]) (hrb : d.rhsBatch = [0]) (hln : d.lhsNonContracting = [1])
    (hrn : d.rhsNonContracting = [1]) (hlc : d.lhsContracting = [2]) (hrc : d.rhsContracting = [2])
    (prec : Option ContractPrecision)
    (l : FVec Ideal ⟨3, ![B, M, K]⟩ φ₁) (r : FVec Ideal ⟨3, ![B, N, K]⟩ φ₂) (b : Fin B) (f : Fin M) (g : Fin N) :
    FloatOps.matmul d prec l r (constant ⟨3, ![B, M, N]⟩ .f32 0x00000000#32) (ix3 b f g)
      = ∑ k : Fin K, l (ix3 b f k) * r (ix3 b g k) :=
  (Ideal.matmul_constant_zero_apply d prec l r (ix3 b f g)).trans (sum_contr_eq d hlb hrb hln hrn hlc hrc l r b f g)

end BatchLast

end Idealize.ShloMosaic.BatchDotLast
-- ==== Proof.KernelGram.lean ====
/-
  What the kernel leaves in the Gram array.

  The pallas_call walks the batch axis in 16 steps of 256 rows. At step t the body loads rows 256 t … 256 t + 255 of
  the argument, rounds them to bf16 (no change at the ideal values) and multiplies the block by itself with batch
  axis 0, both copies contracted on the last axis, into a zero accumulator. So entry (p, f, g) of what step t writes
  back is the sum over d of x (256 t + p, f, d) * x (256 t + p, g, d): block t of ONE function of the whole argument,
  the batched Gram matrix `gram`. The 16 blocks tile the output array, so after the region the array holds `gram` of
  the argument.
-/
import proofs.«148423_j14216341750126_1_alg».proof.Proof.Gen.KernelIdeal.Frame
import proofs.«148423_j14216341750126_1_alg».proof.Proof.LibBatchDotLast
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The batched Gram matrix of x : [4096, 64, 128]: entry (b, f, g) is the sum over d of x (b, f, d) * x (b, g, d). -/
def gram (x : S4096x64x128.Idx → EReal) : S4096x64x64.Idx → EReal :=
  fun j => ∑ k : Fin 128, x (ix3 (j 0) (j 1) k) * x (ix3 (j 0) (j 2) k)

theorem gram_apply (x : S4096x64x128.Idx → EReal) (b : Fin 4096) (f g : Fin 64) :
    gram x (ix3 b f g) = ∑ k : Fin 128, x (ix3 b f k) * x (ix3 b g k) := rfl

/-- The body's one stored value at entry (p, q, r) of the block: the rounding is the identity at the ideal values,
    and the product into zero is the sum over the contracted last axis. -/
theorem pay_apply (x0 : Vec Ideal S256x64x128 .f32) (p : Fin 256) (q r : Fin 64) :
    k0_pay1 x0 (ix3 p q r) = ∑ k : Fin 128, (x0 (ix3 p q k) : EReal) * x0 (ix3 p r k) := by
  unfold k0_pay1
  exact BatchDotLast.matmul_zero_apply dot_S256x64x128_S256x64x128_S256x64x64_2_2_1_1_0_0 rfl rfl rfl rfl rfl rfl none
    (truncf .bf16 x0 _) (truncf .bf16 x0 _) p q r

variable (m : (ℓ : Loc nD τ sig) → Buf (Elt Ideal) ℓ) (ρ : Dev nD → PrngReg)

theorem hz : (![0, 0, 0] : Fin 3 → Nat) = fun _ => 0 := funext fun a => by fin_cases a <;> rfl

/-- The two index maps over the grid: block t of either window starts at batch row 256 t and at row and column 0. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at step t is rows 256 t … 256 t + 255 of the argument as the region finds it. -/
theorem iblk_apply (c : Dev nD) (t : Fin cfg0.N) (x : S256x64x128.Idx) (i : S4096x64x128.Idx)
    (h0 : (i 0).val = 256 * t.val + (x 0).val) (h1 : (i 1).val = (x 1).val) (h2 : (i 2).val = (x 2).val) :
    (iblk m c 0 t : Vec Ideal S256x64x128 .f32) x = (V m c main_arg0 : S4096x64x128.Idx → EReal) i := by
  obtain ⟨e0, e1, e2, -, -, -⟩ := idx_facts t
  unfold iblk
  rw [View.read_apply]
  show (V m c main_arg0 : S4096x64x128.Idx → EReal) _ = _
  refine congrArg (V m c main_arg0 : S4096x64x128.Idx → EReal) ?_
  funext a
  apply Fin.ext
  match a with
  | ⟨0, _⟩ => show win0_0.index t (0 : Fin 3) * 256 + 1 * (x 0).val = (i 0).val; rw [e0, h0]; omega
  | ⟨1, _⟩ => show win0_0.index t (1 : Fin 3) * 64 + 1 * (x 1).val = (i 1).val; rw [e1, h1]; omega
  | ⟨2, _⟩ => show win0_0.index t (2 : Fin 3) * 128 + 1 * (x 2).val = (i 2).val; rw [e2, h2]; omega

/-- What step t writes back is block t of the Gram matrix of the argument. -/
theorem flushed_eq (c : Dev nD) (t : Fin cfg0.N) :
    (dats m 0 c).flushed 1 t = ((cfg0.win 1).blk t).view.read (Elt Ideal) (gram (V m c main_arg0)) := by
  show (cfg0.win 1).cut (grid0.coords t) ((dats m 0 c).after 1 t) = _
  rw [after0_1]
  unfold out0_1
  rw [View.canon_unit_zero hz]
  simp only [View.ld_unit_zero (S := S256x64x128) hz]
  obtain ⟨-, -, -, e3, e4, e5⟩ := idx_facts t
  funext y
  obtain ⟨p, q, r, rfl⟩ : ∃ (p : Fin 256) (q : Fin 64) (r : Fin 64), y = ix3 p q r := ⟨y 0, y 1, y 2, eq_ix3 y⟩
  show k0_pay1 (iblk m c 0 t) (ix3 p q r) = gram (V m c main_arg0) (((cfg0.win 1).blk t).view.emb (ix3 p q r))
  refine (pay_apply (iblk m c 0 t) p q r).trans ?_
  have hN : cfg0.N = 16 := N_0
  have ht := t.isLt
  have hp := p.isLt
  have hb : 256 * t.val + p.val < 4096 := by omega
  have hemb : ((cfg0.win 1).blk t).view.emb (ix3 p q r) = ix3 (⟨256 * t.val + p.val, hb⟩ : Fin 4096) q r := by
    funext a
    apply Fin.ext
    match a with
    | ⟨0, _⟩ => show win0_1.index t (0 : Fin 3) * 256 + 1 * p.val = 256 * t.val + p.val; rw [e3]; omega
    | ⟨1, _⟩ => show win0_1.index t (1 : Fin 3) * 64 + 1 * q.val = q.val; rw [e4]; omega
    | ⟨2, _⟩ => show win0_1.index t (2 : Fin 3) * 64 + 1 * r.val = r.val; rw [e5]; omega
  rw [hemb, gram_apply]
  refine Finset.sum_congr rfl fun k _ => ?_
  exact congrArg₂ (fun a b : EReal => a * b)
    (iblk_apply m c t (ix3 p q k) (ix3 (⟨256 * t.val + p.val, hb⟩ : Fin 4096) q k) rfl rfl rfl)
    (iblk_apply m c t (ix3 p r k) (ix3 (⟨256 * t.val + p.val, hb⟩ : Fin 4096) r k) rfl rfl rfl)

/-- The 16 blocks tile the output array, so after the region it holds the Gram matrix of the argument as the
    region found it. -/
theorem final_gram (c : Dev nD) : (dats m 0 c).arrAt 1 cfg0.N = gram (V m c main_arg0) :=
  (dats m 0 c).arrAt_eq_of_cover 1 (gram (V m c main_arg0)) (fun t _ => flushed_eq m c t) fun i => by
    have hN : cfg0.N = 16 := N_0
    have hi0 : (i 0).val < 4096 := (i 0).isLt
    have hi1 : (i 1).val < 64 := (i 1).isLt
    have hi2 : (i 2).val < 64 := (i 2).isLt
    have htl : (i 0).val / 256 < cfg0.N := by omega
    obtain ⟨-, -, -, e3, e4, e5⟩ := idx_facts ⟨(i 0).val / 256, htl⟩
    refine ⟨⟨(i 0).val / 256, htl⟩, flush0_1 _, ?_⟩
    show i ∈ ((View.whole main_v0).slice (win0_1.rect ⟨(i 0).val / 256, htl⟩)).set
    rw [View.set_slice_whole, Rect.mem_set_unit]
    intro a
    match a with
    | ⟨0, _⟩ =>
      show win0_1.index ⟨(i 0).val / 256, htl⟩ (0 : Fin 3) * 256 ≤ (i 0).val
        ∧ (i 0).val < win0_1.index ⟨(i 0).val / 256, htl⟩ (0 : Fin 3) * 256 + 256
      rw [e3]; show (i 0).val / 256 * 256 ≤ (i 0).val ∧ (i 0).val < (i 0).val / 256 * 256 + 256; omega
    | ⟨1, _⟩ =>
      show win0_1.index ⟨(i 0).val / 256, htl⟩ (1 : Fin 3) * 64 ≤ (i 1).val
        ∧ (i 1).val < win0_1.index ⟨(i 0).val / 256, htl⟩ (1 : Fin 3) * 64 + 64
      rw [e4]; omega
    | ⟨2, _⟩ =>
      show win0_1.index ⟨(i 0).val / 256, htl⟩ (2 : Fin 3) * 64 ≤ (i 2).val
        ∧ (i 2).val < win0_1.index ⟨(i 0).val / 256, htl⟩ (2 : Fin 3) * 64 + 64
      rw [e5]; omega

end Cert.KernelIdeal.Hand

end
-- ==== Proof.KernelTail.lean ====
/-
  The host lines after the region, read as one function of the Gram array.

  After the pallas_call the program does what the reference does after its dot_general: the two constant tables of
  row and column numbers (written before the region) go through jnp's wrap of negative indices, a select under an
  all-false mask, are joined as two index columns and handed to one gather over the Gram array. Named `tail` here,
  it is one function of the Gram array; the value proof carries it unopened.
-/
import proofs.«148423_j14216341750126_1_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]

/-- A table of entry numbers after jnp's wrap of negative indices: where the mask is set, the number plus 64. -/
def wrapped (mask : IVec S2016 1) (tbl : IVec S2016 32) : IVec S2016 32 :=
  select mask (addi tbl (broadcastInDim S2016 ![] bcast_S_S2016 (constantI S_ 32 64#32))) tbl

/-- Everything the program does after the region, as a function of the Gram array `g`: entry (b, e) of the result is
    `g` at batch row `b`, at the row and column the two tables give for `e`. -/
def tail (g : (⟨S4096x64x64, .f32⟩ : BufTy).Contents (Elt F)) : (⟨S4096x2016, .f32⟩ : BufTy).Contents (Elt F) :=
  Host.gather gather_S4096x64x64_S2016x2_S4096x2016_0_12_n_n_12_1_409611 g
    (concatenate S2016x2 1
      [⟨S2016x1, broadcastInDim S2016x1 ![0] bcast_S2016_S2016x1_0 (wrapped (constantI S2016 1 0#1) (fun i => lit0 (S2016.rowMajor i)))⟩,
       ⟨S2016x1, broadcastInDim S2016x1 ![0] bcast_S2016_S2016x1_0 (wrapped (constantI S2016 1 0#1) (fun i => lit1 (S2016.rowMajor i)))⟩]
      concatenates_S2016x1_S2016x1_S2016x2_d1)

variable (m : (ℓ : Loc nD τ sig) → Buf (Elt F) ℓ) (ρ : Dev nD → PrngReg)

/-- The four constants written before the region, as the region finds them. -/
theorem V0_main_c (c : Dev nD) : V0 m c (Proc.devRef .tc main_c) = (fun i => lit0 (S2016.rowMajor i) : IVec S2016 32) := by
  show StableHlo.after hostOps0 (fun b => m (c, b)) (Proc.devRef .tc main_c) = _
  after_results
  rfl
theorem V0_main_c_0 (c : Dev nD) : V0 m c (Proc.devRef .tc main_c_0) = (constantI S2016 1 0#1 : IVec S2016 1) := by
  show StableHlo.after hostOps0 (fun b => m (c, b)) (Proc.devRef .tc main_c_0) = _
  after_results
theorem V0_main_c_1 (c : Dev nD) : V0 m c (Proc.devRef .tc main_c_1) = (fun i => lit1 (S2016.rowMajor i) : IVec S2016 32) := by
  show StableHlo.after hostOps0 (fun b => m (c, b)) (Proc.devRef .tc main_c_1) = _
  after_results
  rfl
theorem V0_main_c_2 (c : Dev nD) : V0 m c (Proc.devRef .tc main_c_2) = (constantI S2016 1 0#1 : IVec S2016 1) := by
  show StableHlo.after hostOps0 (fun b => m (c, b)) (Proc.devRef .tc main_c_2) = _
  after_results

/-- The buffers at the region's exit: the Gram array at what the region left, a constant at its value. -/
theorem exit_main_v0 (c : Dev nD) :
    Pipeline.withArrays (cfgs 0).spec c (V0 m c) (fun w => (dats m 0 c).arrAt w (cfgs 0).N) (Proc.devRef .tc main_v0)
      = (dats m 0 c).arrAt 1 cfg0.N :=
  Pipeline.withArrays_arr spec0 launch0.win.arr_inj c _ _ 1
theorem exit_main_c (c : Dev nD) :
    Pipeline.withArrays (cfgs 0).spec c (V0 m c) (fun w => (dats m 0 c).arrAt w (cfgs 0).N) (Proc.devRef .tc main_c)
      = (fun i => lit0 (S2016.rowMajor i) : IVec S2016 32) :=
  (Pipeline.withArrays_of_ne spec0 c _ _ main_c (by decide)).trans (V0_main_c m c)
theorem exit_main_c_0 (c : Dev nD) :
    Pipeline.withArrays (cfgs 0).spec c (V0 m c) (fun w => (dats m 0 c).arrAt w (cfgs 0).N) (Proc.devRef .tc main_c_0)
      = (constantI S2016 1 0#1 : IVec S2016 1) :=
  (Pipeline.withArrays_of_ne spec0 c _ _ main_c_0 (by decide)).trans (V0_main_c_0 m c)
theorem exit_main_c_1 (c : Dev nD) :
    Pipeline.withArrays (cfgs 0).spec c (V0 m c) (fun w => (dats m 0 c).arrAt w (cfgs 0).N) (Proc.devRef .tc main_c_1)
      = (fun i => lit1 (S2016.rowMajor i) : IVec S2016 32) :=
  (Pipeline.withArrays_of_ne spec0 c _ _ main_c_1 (by decide)).trans (V0_main_c_1 m c)
theorem exit_main_c_2 (c : Dev nD) :
    Pipeline.withArrays (cfgs 0).spec c (V0 m c) (fun w => (dats m 0 c).arrAt w (cfgs 0).N) (Proc.devRef .tc main_c_2)
      = (constantI S2016 1 0#1 : IVec S2016 1) :=
  (Pipeline.withArrays_of_ne spec0 c _ _ main_c_2 (by decide)).trans (V0_main_c_2 m c)

/-- The result buffer after the lines that follow the region is `tail` of the Gram array as the region leaves it. -/
theorem tail_value (c : Dev nD) :
    Pipeline.afterTail₀ cfgs (dats m) 0 (V0 m) [hostOps1] c main_v10 = tail ((dats m 0 c).arrAt 1 cfg0.N) := by
  unfold Pipeline.afterTail₀
  show StableHlo.after hostOps1 _ (Proc.devRef .tc main_v10) = _
  after_results
  rw [exit_main_v0, exit_main_c, exit_main_c_0, exit_main_c_1, exit_main_c_2]
  rfl

end Cert.KernelIdeal.Hand

end
-- ==== Proof.KernelRun.lean ====
/-
  The idealized kernel's run, read: the result buffer ends at `tail` of the Gram matrix of the argument, the
  argument unchanged. The region leaves the Gram matrix in its output array (the 16 blocks tile it), no line before
  the region writes the argument, and the lines after the region are `tail`.
-/
import proofs.«148423_j14216341750126_1_alg».proof.Proof.KernelGram
import proofs.«148423_j14216341750126_1_alg».proof.Proof.KernelTail

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The result after the whole program, as a function of the argument at launch. -/
theorem result_eq (c : Dev nD) :
    Pipeline.afterTail₀ cfgs (dats m) 0 (V0 m) [hostOps1] c main_v10
      = tail (F := Ideal) (gram (m ((c.tc : Thread nD τ).loc main_arg0))) :=
  (tail_value m c).trans (congrArg (tail (F := Ideal)) ((final_gram m c).trans (congrArg gram (V_main_arg0 m c))))

/-- From any memory with zero counters every weakly fair execution of the idealized kernel's @main terminates with
    the result at `tail` of the argument's Gram matrix and the argument unchanged. -/
theorem run : θ_run defs (onTc (τ := τ) (main (F := Ideal))) ⟨m, fun _ => 0, ρ⟩ fun r => ∀ c : Dev nD,
      r.2.mem ((c.tc : Thread nD τ).loc main_v10) = tail (F := Ideal) (gram (m ((c.tc : Thread nD τ).loc main_arg0)))
      ∧ r.2.mem ((c.tc : Thread nD τ).loc main_arg0) = m ((c.tc : Thread nD τ).loc main_arg0) :=
  (θ_run defs _ _).mono (fun r h c =>
      ⟨((h c).2 main_v10 (Pipeline.mem_restRefs_of main_v10 rfl (by decide))).trans (result_eq m c),
       ((h c).1 0).trans (((dats m 0 c).arrAt_in 0 rfl _).trans ((A_eq m c 0).trans (V_main_arg0 m c)))⟩)
    (run_main m ρ)

end Cert.KernelIdeal.Hand

end
-- ==== Proof.RefRun.lean ====
/-
  The reference's @main as the list of its seventeen host operations, and its run read back.

  The reference takes the batched Gram matrix of the argument (a dot_general with batch axis 0, both operands
  contracted on their last axis) and then selects, for every batch row, the 2016 entries strictly above the
  diagonal: the two constant tables hold the row and the column number of each selected entry, jnp's wrap of
  negative indices is a select under an all-false mask, and the two index columns are joined and handed to one
  gather. Everything after the Gram matrix is named `tail`: one function of the Gram matrix that the value proof
  carries unopened.
-/
import proofs.«148423_j14216341750126_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's seventeen operations, in order. -/
abbrev ops : List (HloOp τ sig (Elt F)) :=
  [ nullary main_c (fun i => lit0 (S2016.rowMajor i)),
    nullary main_c_0 (constantI S2016 1 0#1),
    nullary main_c_1 (fun i => lit1 (S2016.rowMajor i)),
    nullary main_c_2 (constantI S2016 1 0#1),
    binary main_arg0 main_arg0 main_v0 ((fun l r => Host.dotGeneral dot_S4096x64x128_S4096x64x128_S4096x64x64_2_2_1_1_0_0 none l r) : (⟨S4096x64x128, .f32⟩ : BufTy).Contents (Elt F) → (⟨S4096x64x128, .f32⟩ : BufTy).Contents (Elt F) → (⟨S4096x64x64, .f32⟩ : BufTy).Contents (Elt F)),
    nullary main_c_3 (constantI S_ 32 64#32),
    unary main_c_3 main_v1 (broadcastInDim S2016 ![] bcast_S_S2016 : (⟨S_, .i32⟩ : BufTy).Contents (Elt F) → (⟨S2016, .i32⟩ : BufTy).Contents (Elt F)),
    binary main_c main_v1 main_v2 (addi : (⟨S2016, .i32⟩ : BufTy).Contents (Elt F) → (⟨S2016, .i32⟩ : BufTy).Contents (Elt F) → (⟨S2016, .i32⟩ : BufTy).Contents (Elt F)),
    ternary main_c_0 main_v2 main_c main_v3 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_4 (constantI S_ 32 64#32),
    unary main_c_4 main_v4 (broadcastInDim S2016 ![] bcast_S_S2016 : (⟨S_, .i32⟩ : BufTy).Contents (Elt F) → (⟨S2016, .i32⟩ : BufTy).Contents (Elt F)),
    binary main_c_1 main_v4 main_v5 (addi : (⟨S2016, .i32⟩ : BufTy).Contents (Elt F) → (⟨S2016, .i32⟩ : BufTy).Contents (Elt F) → (⟨S2016, .i32⟩ : BufTy).Contents (Elt F)),
    ternary main_c_2 main_v5 main_c_1 main_v6 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v3 main_v7 (broadcastInDim S2016x1 ![0] bcast_S2016_S2016x1_0 : (⟨S2016, .i32⟩ : BufTy).Contents (Elt F) → (⟨S2016x1, .i32⟩ : BufTy).Contents (Elt F)),
    unary main_v6 main_v8 (broadcastInDim S2016x1 ![0] bcast_S2016_S2016x1_0 : (⟨S2016, .i32⟩ : BufTy).Contents (Elt F) → (⟨S2016x1, .i32⟩ : BufTy).Contents (Elt F)),
    binary main_v7 main_v8 main_v9 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v9 main_v10 ((fun x i => Host.gather gather_S4096x64x64_S2016x2_S4096x2016_0_12_n_n_12_1_409611 x i) : (⟨S4096x64x64, .f32⟩ : BufTy).Contents (Elt F) → (⟨S2016x2, .i32⟩ : BufTy).Contents (Elt F) → (⟨S4096x2016, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., binary_bufs_sub .., nullary_bufs_sub ..,
    unary_bufs_sub .., binary_bufs_sub .., ternary_bufs_sub .., nullary_bufs_sub .., unary_bufs_sub .., binary_bufs_sub ..,
    ternary_bufs_sub .., unary_bufs_sub .., unary_bufs_sub .., binary_bufs_sub .., binary_bufs_sub ..⟩

/-- A table of entry numbers after jnp's wrap of negative indices: where the mask is set, the number plus 64. -/
def wrapped (mask : IVec S2016 1) (tbl : IVec S2016 32) : IVec S2016 32 :=
  select mask (addi tbl (broadcastInDim S2016 ![] bcast_S_S2016 (constantI S_ 32 64#32))) tbl

/-- Everything the program does after the Gram matrix `g`: entry (b, e) of the result is `g` at batch row `b`, at the
    row and column the two tables give for `e`. The tables, the masks and the gather's dimension numbers are the
    program's own; the value proof never opens this function. -/
def tail (g : (⟨S4096x64x64, .f32⟩ : BufTy).Contents (Elt F)) : (⟨S4096x2016, .f32⟩ : BufTy).Contents (Elt F) :=
  Host.gather gather_S4096x64x64_S2016x2_S4096x2016_0_12_n_n_12_1_409611 g
    (concatenate S2016x2 1
      [⟨S2016x1, broadcastInDim S2016x1 ![0] bcast_S2016_S2016x1_0 (wrapped (constantI S2016 1 0#1) (fun i => lit0 (S2016.rowMajor i)))⟩,
       ⟨S2016x1, broadcastInDim S2016x1 ![0] bcast_S2016_S2016x1_0 (wrapped (constantI S2016 1 0#1) (fun i => lit1 (S2016.rowMajor i)))⟩]
      concatenates_S2016x1_S2016x1_S2016x2_d1)

/-- On every device, from any memory with zero counters: every weakly fair execution of @main terminates with the
    result at `tail` of the argument's batched Gram matrix and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = tail (Host.dotGeneral dot_S4096x64x128_S4096x64x128_S4096x64x64_2_2_1_1_0_0 none
              (m ((c.tc : Thread nD τ).loc main_arg0)) (m ((c.tc : Thread nD τ).loc main_arg0)))
      ∧ r.2.mem ((c.tc : Thread nD τ).loc main_arg0) = m ((c.tc : Thread nD τ).loc main_arg0) :=
  (θ_run defs _ _).mono (fun _ h c => ⟨(h c main_v10).trans (by unfold tail wrapped; after_results; rfl),
      (h c main_arg0).trans (by after_results)⟩)
    (run_seq scopedRefs_eq scopedSems_eq defs main (fun _ => ops) main_eq (fun _ => ops_sub) m ρ)

end Cert.ReferenceIdeal.Hand

end
-- ==== Proof.Bridge.lean ====
/-
  The two programs compute one function.

  Both end with the same lines after their Gram matrix: the same two tables of row and column numbers, the same wrap
  of negative indices, the same gather. So the two `tail` functions are one function. And the reference's Gram
  matrix, a dot_general with batch axis 0 and both operands contracted on their last axis, is at entry (b, f, g) the
  sum over d of x (b, f, d) * x (b, g, d): the kernel's `gram`. No law of arithmetic beyond that is used, so the
  argument may hold infinities.
-/
import proofs.«148423_j14216341750126_1_alg».proof.Proof.KernelRun
import proofs.«148423_j14216341750126_1_alg».proof.Proof.RefRun

noncomputable section

open Idealize.ShloMosaic Idealize.ShloMosaic.TcCoe Idealize.SL.Sem Idealize.ShloMosaic.ValueIdx

namespace Cert.Proof.Bridge

/-- The tables of row numbers of the two programs are one table, -/
theorem lit0_eq : Cert.KernelIdeal.lit0 = Cert.ReferenceIdeal.lit0 := rfl
/-- and so are the tables of column numbers. -/
theorem lit1_eq : Cert.KernelIdeal.lit1 = Cert.ReferenceIdeal.lit1 := rfl

/-- The lines after the Gram matrix are the same function in both programs. -/
theorem tail_eq {F : FTy → Type} [FloatOps F] (g : (⟨Cert.KernelIdeal.S4096x64x64, .f32⟩ : BufTy).Contents (Elt F)) :
    Cert.KernelIdeal.Hand.tail (F := F) g = Cert.ReferenceIdeal.Hand.tail (F := F) g := by
  unfold Cert.KernelIdeal.Hand.tail Cert.ReferenceIdeal.Hand.tail Cert.KernelIdeal.Hand.wrapped Cert.ReferenceIdeal.Hand.wrapped
  rw [lit0_eq, lit1_eq]
  rfl

/-- The reference's dot_general of the argument with itself is the batched Gram matrix. -/
theorem ref_gram (x : FVec Ideal Cert.ReferenceIdeal.S4096x64x128 .f32) :
    Host.dotGeneral Cert.ReferenceIdeal.dot_S4096x64x128_S4096x64x128_S4096x64x64_2_2_1_1_0_0 none x x
      = Cert.KernelIdeal.Hand.gram x := by
  funext j
  obtain ⟨b, f, g, rfl⟩ : ∃ (b : Fin 4096) (f : Fin 64) (g : Fin 64), j = ix3 b f g := ⟨j 0, j 1, j 2, eq_ix3 j⟩
  rw [Cert.KernelIdeal.Hand.gram_apply]
  exact BatchDotLast.dotGeneral_apply Cert.ReferenceIdeal.dot_S4096x64x128_S4096x64x128_S4096x64x64_2_2_1_1_0_0
    rfl rfl rfl rfl rfl rfl none _ x x b f g

end Cert.Proof.Bridge

end
-- ==== Proof.lean ====
/-
  The certificate's five claims.

  The kernel computes, for every batch row b of x : [4096, 64, 128], the Gram matrix of the row's 64 feature vectors,
  G (b, f, g) = sum over d of x (b, f, d) * x (b, g, d), in 16 grid steps of 256 batch rows (the inputs rounded to bf16
  on the way into the matrix unit, which changes nothing at the ideal values), and then gathers the 2016 entries
  strictly above the diagonal of every row's matrix. The reference takes the same Gram matrix by one dot_general and
  gathers through the same two index tables.

  Frames: the kernel's two are the generated frame certificates; the reference's is its run (Proof/RefRun.lean) with
  the value dropped. The idealization rewrote nothing, so `preserves` is `True`. Values (`algebraic`): the kernel's
  Gram array is `gram` of the argument (Proof/KernelGram.lean: each block is a block of `gram`, the blocks tile the
  array), the reference's dot_general is `gram` of the argument (Proof/Bridge.lean, over Proof/LibBatchDotLast.lean),
  and the lines after the Gram matrix are one function `tail` in both programs, never opened. Only the definition of
  the two products as sums is used: no precondition on the argument is needed.
-/
import proofs.«148423_j14216341750126_1_alg».proof.Defs
import proofs.«148423_j14216341750126_1_alg».proof.Proof.Gen.Kernel
import proofs.«148423_j14216341750126_1_alg».proof.Proof.Gen.Kernel.Frame
import proofs.«148423_j14216341750126_1_alg».proof.Proof.Gen.KernelIdeal
import proofs.«148423_j14216341750126_1_alg».proof.Proof.Gen.KernelIdeal.Frame
import proofs.«148423_j14216341750126_1_alg».proof.Proof.Gen.ReferenceIdeal
import proofs.«148423_j14216341750126_1_alg».proof.Proof.Gen.Pre_finite_inputs
import proofs.«148423_j14216341750126_1_alg».proof.Proof.KernelRun
import proofs.«148423_j14216341750126_1_alg».proof.Proof.RefRun
import proofs.«148423_j14216341750126_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the value dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- Both programs end at `tail` of the Gram matrix of the argument. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [hagree c, Bridge.ref_gram]
  exact (Bridge.tail_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
